-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) (main_arg1 : IVec S4096x8192 32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  main_v3
-- ==== Kernel.lean ====
abbrev S4096x8192 : Shape := ⟨2, ![4096, 8192]⟩
abbrev S2x8x128 : Shape := ⟨3, ![2, 8, 128]⟩
abbrev S256x8192 : Shape := ⟨2, ![256, 8192]⟩
abbrev S1x8x128 : Shape := ⟨3, ![1, 8, 128]⟩
abbrev S8x128 : Shape := ⟨2, ![8, 128]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩

abbrev nBuf : Space → Nat
  | .hbm => 19
  | .vmem => 10
  | .smem => 0
  | _ => 0

abbrev bufTy : (tb : Table) → Fin (tcTables nBuf tb) → BufTy
  | .hbm, ⟨0, _⟩ => ⟨S4096x8192, .f32⟩
  | .hbm, ⟨1, _⟩ => ⟨S4096x8192, .i32⟩
  | .hbm, ⟨2, _⟩ => ⟨S2x8x128, .f32⟩
  | .hbm, ⟨3, _⟩ => ⟨S2x8x128, .f32⟩
  | .hbm, ⟨4, _⟩ => ⟨S2x1x1, .f32⟩
  | .hbm, ⟨5, _⟩ => ⟨S2, .f32⟩
  | .hbm, ⟨6, _⟩ => ⟨S_, .f32⟩
  | .hbm, ⟨7, _⟩ => ⟨S_, .f32⟩
  | .hbm, ⟨8, _⟩ => ⟨S2x1x1, .f32⟩
  | .hbm, ⟨9, _⟩ => ⟨S2, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S256x8192, .f32⟩
  | .local _ .vmem, ⟨1, _⟩ => ⟨S256x8192, .f32⟩
  | .local _ .vmem, ⟨2, _⟩ => ⟨S256x8192, .i32⟩
  | .local _ .vmem, ⟨3, _⟩ => ⟨S256x8192, .i32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | .local _ .vmem, ⟨8, _⟩ => ⟨S8x128, .f32⟩
  | .local _ .vmem, ⟨9, _⟩ => ⟨S8x128, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v49 : BitVec 1 := Scalar.cmpi .eq arg1 c7_i32
  let v50 : BitVec 32 := Scalar.extui v49
  let c0_i32_21 : BitVec 32 := 0#32
  let v51 : BitVec 1 := Scalar.cmpi .ne v50 c0_i32_21
  v51

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S256x8192_S256x8192_0_0 : ∀ a, (![0, 0] : Fin 2 → Nat) a + S256x8192.size a ≤ S256x8192.size a
  h_S256x8192 : 0 < S256x8192.numel
  natLt_1_32 : 1 < 32
  reduces_S256x8192_S256 : S256x8192.Reduces [1] S256
  shapeCasts_S256_S256x1 : S256.ShapeCasts S256x1
  shapeCasts_S256x1_S1x256x1 : S256x1.ShapeCasts S1x256x1
  reduces_S1x256x1_S1 : S1x256x1.Reduces [1, 2] S1
  shapeCasts_S1_S1x1x1 : S1.ShapeCasts S1x1x1
  inpos_S1x1x1_p0_0_0 : ∀ a, (![0, 0, 0] : Fin 3 → Nat) a < S1x1x1.size a
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S4096x8192.size a
  hwx0_0 : ∀ i : grid0.Coords, EltTy.bits .f32 = 32 ∨ (Rect.block (s := S4096x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S4096x8192.size a
  hwx0_1 : ∀ i : grid0.Coords, EltTy.bits .i32 = 32 ∨ (Rect.block (s := S4096x8192) S256x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)

variable [Facts₀]

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x8192 : Shape := ⟨2, ![4096, 8192]⟩
abbrev S_ : Shape := ⟨0, ![]⟩
abbrev S4096 : Shape := ⟨1, ![4096]⟩

abbrev nBuf : Space → Nat
  | .hbm => 47
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .i32⟩
  | .hbm, ⟨2, _⟩ => ⟨S_, .f32⟩
  | .hbm, ⟨3, _⟩ => ⟨S_, .i32⟩
  | .hbm, ⟨4, _⟩ => ⟨S4096x8192, .i32⟩
  | .hbm, ⟨5, _⟩ => ⟨S4096x8192, .i1⟩
  | .hbm, ⟨6, _⟩ => ⟨S4096x8192, .i1⟩
  | .hbm, ⟨7, _⟩ => ⟨S4096x8192, .i32⟩
  | .hbm, ⟨8, _⟩ => ⟨S_, .i32⟩
  | .hbm, ⟨9, _⟩ => ⟨S4096, .i32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S_, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096, .f32⟩
  | .hbm, ⟨23, _⟩ => ⟨S4096x8192, .f32⟩
  | .hbm, ⟨24, _⟩ => ⟨S4096x8192, .f32⟩
  | .hbm, ⟨25, _⟩ => ⟨S_, .f32⟩
  | .hbm, ⟨26, _⟩ => ⟨S4096x8192, .f32⟩
  | .hbm, ⟨27, _⟩ => ⟨S4096x8192, .f32⟩
  | .hbm, ⟨28, _⟩ => ⟨S_, .f32⟩
  | .hbm, ⟨29, _⟩ => ⟨S_, .f32⟩
  | .hbm, ⟨30, _⟩ => ⟨S4096x8192, .f32⟩
  | .hbm, ⟨31, _⟩ => ⟨S4096x8192, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_call0_v0 : Ref sig .tc := ⟨.hbm, 18, rfl⟩
abbrev main_call0_v1 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_5 : Ref sig .tc := ⟨.hbm, 25, rfl⟩
abbrev main_v14 : Ref sig .tc := ⟨.hbm, 26, rfl⟩
abbrev main_v15 : Ref sig .tc := ⟨.hbm, 27, rfl⟩
abbrev main_cst_6 : Ref sig .tc := ⟨.hbm, 28, rfl⟩
abbrev main_call1_v0 : Ref sig .tc := ⟨.hbm, 29, rfl⟩
abbrev main_call1_v1 : Ref sig .tc := ⟨.hbm, 30, rfl⟩
abbrev main_v16 : Ref sig .tc := ⟨.hbm, 31, rfl⟩
abbrev main_cst_7 : Ref sig .tc := ⟨.hbm, 32, rfl⟩
abbrev main_v17 : Ref sig .tc := ⟨.hbm, 33, rfl⟩
abbrev main_v18 : Ref sig .tc := ⟨.hbm, 34, rfl⟩
abbrev main_cst_8 : Ref sig .tc := ⟨.hbm, 35, rfl⟩
abbrev main_v19 : Ref sig .tc := ⟨.hbm, 36, rfl⟩
abbrev main_cst_9 : Ref sig .tc := ⟨.hbm, 37, rfl⟩
abbrev main_v20 : Ref sig .tc := ⟨.hbm, 38, rfl⟩
abbrev main_v21 : Ref sig .tc := ⟨.hbm, 39, rfl⟩
abbrev main_cst_10 : Ref sig .tc := ⟨.hbm, 40, rfl⟩
abbrev main_v22 : Ref sig .tc := ⟨.hbm, 41, rfl⟩
abbrev main_cst_11 : Ref sig .tc := ⟨.hbm, 42, rfl⟩
abbrev main_v23 : Ref sig .tc := ⟨.hbm, 43, rfl⟩
abbrev main_v24 : Ref sig .tc := ⟨.hbm, 44, rfl⟩
abbrev main_cst_12 : Ref sig .tc := ⟨.hbm, 45, rfl⟩
abbrev main_v25 : Ref sig .tc := ⟨.hbm, 46, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)
  natLt_1_32 : 1 < 32
  reducesTo_S4096x8192_S4096_d1 : S4096x8192.ReducesTo [1] S4096
  h_S_ : 0 < S_.numel
  bcast_S_S4096 : S_.BroadcastsInDim S4096 (![] : Fin 0 → Fin S4096.rank)
  reducesTo_S4096_S_d0 : S4096.ReducesTo [0] S_

variable [Facts₀]

class Facts : Prop extends Facts₀ where

variable [Facts]
-- ==== Proof.KPieces.lean ====
/-
  What one run of the kernel body leaves behind, case by case.

  The body keeps two (8,128) accumulator tiles across the steps of a shard. At a shard's first step it stores
  zeros into both, reads them back, and adds the block's two sums (each one number, spread over the tile); at every
  other step it adds to what the step before left; at a shard's last step it also copies both tiles into the two
  output tiles. Here each of those stored values is read back as a plain term: the accumulator the step found
  (or zero) plus the block's sum, and for the outputs the same with a unit axis added in front.
-/
import proofs.«402006_j8486855377002_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The zero block a shard's first step stores into each accumulator. -/
abbrev zero : Vec F S8x128 .f32 := broadcast S8x128 (Scalar.ofBits .f32 0x00000000#32)

/-- One step of the target accumulator: the block's sum of row terms, spread over the tile, added to it. -/
def stepT (acc : Vec F S8x128 .f32) (k : Vec F S256x8192 .i32) (x : Vec F S256x8192 .f32) : Vec F S8x128 .f32 :=
  addf acc (k0_pay10 k x)

/-- One step of the non-target accumulator. -/
def stepNT (acc : Vec F S8x128 .f32) (k : Vec F S256x8192 .i32) (x : Vec F S256x8192 .f32) : Vec F S8x128 .f32 :=
  addf acc (broadcast S8x128 (k0_pay9 k x))

/-! ## What each control case leaves in the two accumulators and, at a shard's last step, in the two output tiles -/

/-- A shard's first step: the accumulator is reset to zero, read back, and stepped. -/
theorem sA0 (c : Dev nD) (i : grid0.Coords) (arg2 : Memref sig .tc .vmem S256x8192 .f32) (harg2 : arg2.IsWhole) (arg3 : Memref sig .tc .vmem S256x8192 .i32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S8x128 .f32) (harg6 : arg6.IsWhole) (arg7 : Memref sig .tc .vmem S8x128 .f32) (harg7 : arg7.IsWhole) (hc0 : cond0_0 i) (hc1 : ¬cond0_1 i)
    (x0 : Vec F S256x8192 .f32) (x1 : Vec F S256x8192 .i32) :
    sout0_A_0 c i arg2 harg2 arg3 harg3 arg4 harg4 arg5 harg5 arg6 harg6 arg7 harg7 hc0 hc1 x0 x1 = stepT zero x1 x0 := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S8x128) hz2]
  simp only [View.readAt_eq_ld, harg2.read_unread, harg3.read_unread, harg6.read_unread, harg7.read_unread, View.ld_unit_zero (S := S8x128) hz2, View.ld_unit_zero (S := S256x8192) hz2, View.readCov_unit_zero (S := S8x128) _ hz2]
  unfold k0_pay1 k0_pay5 stepT zero
  simp only [shapeCast_self]

theorem sA1 (c : Dev nD) (i : grid0.Coords) (arg2 : Memref sig .tc .vmem S256x8192 .f32) (harg2 : arg2.IsWhole) (arg3 : Memref sig .tc .vmem S256x8192 .i32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S8x128 .f32) (harg6 : arg6.IsWhole) (arg7 : Memref sig .tc .vmem S8x128 .f32) (harg7 : arg7.IsWhole) (hc0 : cond0_0 i) (hc1 : ¬cond0_1 i)
    (x0 : Vec F S256x8192 .f32) (x1 : Vec F S256x8192 .i32) :
    sout0_A_1 c i arg2 harg2 arg3 harg3 arg4 harg4 arg5 harg5 arg6 harg6 arg7 harg7 hc0 hc1 x0 x1 = stepNT zero x1 x0 := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S8x128) hz2]
  simp only [View.readAt_eq_ld, harg2.read_unread, harg3.read_unread, harg6.read_unread, harg7.read_unread, View.ld_unit_zero (S := S8x128) hz2, View.ld_unit_zero (S := S256x8192) hz2, View.readCov_unit_zero (S := S8x128) _ hz2]
  unfold k0_pay2 k0_pay6 stepNT zero
  simp only [shapeCast_self]

/-- A middle step: the accumulator the step before left, stepped. -/
theorem sB0 (c : Dev nD) (i : grid0.Coords) (arg2 : Memref sig .tc .vmem S256x8192 .f32) (harg2 : arg2.IsWhole) (arg3 : Memref sig .tc .vmem S256x8192 .i32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : ¬cond0_1 i)
    (x0 : Vec F S256x8192 .f32) (x1 : Vec F S256x8192 .i32) (xs0 : Vec F S8x128 .f32) (xs1 : Vec F S8x128 .f32) :
    sout0_B_0 c i arg2 harg2 arg3 harg3 arg4 harg4 arg5 harg5 arg6 harg6 arg7 harg7 hc0 hc1 x0 x1 xs0 xs1 = stepT xs0 x1 x0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg6.read_unread, harg7.read_unread, View.ld_unit_zero (S := S8x128) hz2, View.ld_unit_zero (S := S256x8192) hz2, View.readCov_unit_zero (S := S8x128) _ hz2]
  unfold k0_pay1 stepT
  simp only [shapeCast_self]

theorem sB1 (c : Dev nD) (i : grid0.Coords) (arg2 : Memref sig .tc .vmem S256x8192 .f32) (harg2 : arg2.IsWhole) (arg3 : Memref sig .tc .vmem S256x8192 .i32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : ¬cond0_1 i)
    (x0 : Vec F S256x8192 .f32) (x1 : Vec F S256x8192 .i32) (xs0 : Vec F S8x128 .f32) (xs1 : Vec F S8x128 .f32) :
    sout0_B_1 c i arg2 harg2 arg3 harg3 arg4 harg4 arg5 harg5 arg6 harg6 arg7 harg7 hc0 hc1 x0 x1 xs0 xs1 = stepNT xs1 x1 x0 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg6.read_unread, harg7.read_unread, View.ld_unit_zero (S := S8x128) hz2, View.ld_unit_zero (S := S256x8192) hz2, View.readCov_unit_zero (S := S8x128) _ hz2]
  unfold k0_pay2 stepNT
  simp only [shapeCast_self]

/-- A shard's last step: the same, and the stepped accumulator is copied into the output tile. -/
theorem sC0 (c : Dev nD) (i : grid0.Coords) (arg2 : Memref sig .tc .vmem S256x8192 .f32) (harg2 : arg2.IsWhole) (arg3 : Memref sig .tc .vmem S256x8192 .i32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : cond0_1 i)
    (x0 : Vec F S256x8192 .f32) (x1 : Vec F S256x8192 .i32) (xs0 : Vec F S8x128 .f32) (xs1 : Vec F S8x128 .f32) :
    sout0_C_0 c i arg2 harg2 arg3 harg3 arg4 harg4 arg5 harg5 arg6 harg6 arg7 harg7 hc0 hc1 x0 x1 xs0 xs1 = stepT xs0 x1 x0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg6.read_unread, harg7.read_unread, View.ld_unit_zero (S := S8x128) hz2, View.ld_unit_zero (S := S256x8192) hz2, View.readCov_unit_zero (S := S8x128) _ hz2]
  unfold k0_pay1 stepT
  simp only [shapeCast_self]

theorem sC1 (c : Dev nD) (i : grid0.Coords) (arg2 : Memref sig .tc .vmem S256x8192 .f32) (harg2 : arg2.IsWhole) (arg3 : Memref sig .tc .vmem S256x8192 .i32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : cond0_1 i)
    (x0 : Vec F S256x8192 .f32) (x1 : Vec F S256x8192 .i32) (xs0 : Vec F S8x128 .f32) (xs1 : Vec F S8x128 .f32) :
    sout0_C_1 c i arg2 harg2 arg3 harg3 arg4 harg4 arg5 harg5 arg6 harg6 arg7 harg7 hc0 hc1 x0 x1 xs0 xs1 = stepNT xs1 x1 x0 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg6.read_unread, harg7.read_unread, View.ld_unit_zero (S := S8x128) hz2, View.ld_unit_zero (S := S256x8192) hz2, View.readCov_unit_zero (S := S8x128) _ hz2]
  unfold k0_pay2 stepNT
  simp only [shapeCast_self]

theorem oC2 (c : Dev nD) (i : grid0.Coords) (arg2 : Memref sig .tc .vmem S256x8192 .f32) (harg2 : arg2.IsWhole) (arg3 : Memref sig .tc .vmem S256x8192 .i32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : cond0_1 i)
    (x0 : Vec F S256x8192 .f32) (x1 : Vec F S256x8192 .i32) (xs0 : Vec F S8x128 .f32) (xs1 : Vec F S8x128 .f32) :
    out0_C_2 c i arg2 harg2 arg3 harg3 arg4 harg4 arg5 harg5 arg6 harg6 arg7 harg7 hc0 hc1 x0 x1 xs0 xs1 = shapeCast S1x8x128 (stepT xs0 x1 x0) shapeCasts_S8x128_S1x8x128 := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero hz3]
  simp only [View.readAt_eq_ld, harg2.read_unread, harg3.read_unread, harg6.read_unread, harg7.read_unread, View.ld_unit_zero (S := S8x128) hz2, View.ld_unit_zero (S := S256x8192) hz2, View.readCov_unit_zero (S := S8x128) _ hz2]
  unfold k0_pay3 k0_pay1 stepT
  simp only [shapeCast_self]

theorem oC3 (c : Dev nD) (i : grid0.Coords) (arg2 : Memref sig .tc .vmem S256x8192 .f32) (harg2 : arg2.IsWhole) (arg3 : Memref sig .tc .vmem S256x8192 .i32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : cond0_1 i)
    (x0 : Vec F S256x8192 .f32) (x1 : Vec F S256x8192 .i32) (xs0 : Vec F S8x128 .f32) (xs1 : Vec F S8x128 .f32) :
    out0_C_3 c i arg2 harg2 arg3 harg3 arg4 harg4 arg5 harg5 arg6 harg6 arg7 harg7 hc0 hc1 x0 x1 xs0 xs1 = shapeCast S1x8x128 (stepNT xs1 x1 x0) shapeCasts_S8x128_S1x8x128 := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero hz3]
  simp only [View.readAt_eq_ld, harg2.read_unread, harg3.read_unread, harg6.read_unread, harg7.read_unread, View.ld_unit_zero (S := S8x128) hz2, View.ld_unit_zero (S := S256x8192) hz2, View.readCov_unit_zero (S := S8x128) _ hz2]
  unfold k0_pay4 k0_pay2 stepNT
  simp only [shapeCast_self]

end Cert.KernelIdeal.KValue

end
-- ==== Proof.Spec.lean ====
/-
  The ranking loss as plain mathematics over the extended reals, with no program in sight.

  A score matrix X (rows are documents, 8192 columns are queries) and an integer label matrix M of the same
  shape. A label counts as a target when its word is nonzero; `ind` is that indicator as a number (0 or 1).
  Per row r:
    cnt r    = the number of targets,
    rowT r   = (cnt r - sum over targets of X) / cnt r            -- mean of (1 - X) over the targets
    rowNT r  = (sum of relu X - sum over targets of relu X) / (8192 - cnt r)   -- mean of relu X over the rest
  and the three results are the row means of rowT and rowNT over 4096 rows and half their sum.
  The quotient is the extended reals' total quotient `Ideal.div`; the three float constants 8192, 4096 and 1/2
  stay as the words the programs spell, since both programs spell the same words.
-/
import Idealize.ShloMosaic.PureOps.Ideal
import Idealize.ShloMosaic.Lib.ValueIdx

noncomputable section

open scoped BigOperators

namespace RankLoss

open Idealize.ShloMosaic Idealize.ShloMosaic.ValueIdx

/-- The shape of a matrix of `R` rows and 8192 columns. -/
abbrev Mat (R : Nat) : Shape := ⟨2, ![R, 8192]⟩

/-- A label is a target when its word is not zero: the comparison's bit. -/
def bit (w : BitVec 32) : BitVec 1 := IntOp.cmpi .ne w 0#32

/-- The target indicator as an extended real: the bit widened to a word and read as a signed integer (0 or 1). -/
def ind (w : BitVec 32) : EReal := ((((bit w).setWidth 32).toInt : ℝ) : EReal)

/-- The positive part, as both programs compute it with margin zero: max (x - 0) 0. -/
def relu (x : EReal) : EReal := max (x - 0) 0

section rows
variable {R : Nat} (X : (Mat R).Idx → EReal) (M : (Mat R).Idx → BitVec 32)

/-- The number of targets in row `r`, as the sum of the indicators. -/
def cnt (r : Fin R) : EReal := ∑ q : Fin 8192, ind (M (ix2 r q))

/-- Row `r`'s target term: (count - sum of the targets' scores) / count. -/
def rowT (r : Fin R) : EReal :=
  Ideal.div (cnt M r - ∑ q : Fin 8192, ind (M (ix2 r q)) * X (ix2 r q)) (cnt M r)

/-- Row `r`'s non-target term: (sum of relu - sum of the targets' relu) / (8192 - count). -/
def rowNT (r : Fin R) : EReal :=
  Ideal.div ((∑ q : Fin 8192, relu (X (ix2 r q))) - ∑ q : Fin 8192, ind (M (ix2 r q)) * relu (X (ix2 r q)))
    (Ideal.ofBits .f32 0x46000000#32 - cnt M r)

end rows

/-- The mean over the 4096 rows of the target terms. -/
def lossT (X : (Mat 4096).Idx → EReal) (M : (Mat 4096).Idx → BitVec 32) : EReal :=
  Ideal.div (∑ r : Fin 4096, rowT X M r) (Ideal.ofBits .f32 0x45800000#32)

/-- The mean over the 4096 rows of the non-target terms. -/
def lossNT (X : (Mat 4096).Idx → EReal) (M : (Mat 4096).Idx → BitVec 32) : EReal :=
  Ideal.div (∑ r : Fin 4096, rowNT X M r) (Ideal.ofBits .f32 0x45800000#32)

/-- Half the sum of the two means. -/
def loss (X : (Mat 4096).Idx → EReal) (M : (Mat 4096).Idx → BitVec 32) : EReal :=
  (lossT X M + lossNT X M) * Ideal.ofBits .f32 0x3F000000#32

end RankLoss

end
-- ==== Proof.LibSumIdx.lean ====
/-
  Sums over a rank-1 and a rank-3 index set as iterated sums over the coordinates: the index set of a shape
  `[n]` is `Fin n`, that of `[n0, n1, n2]` is `Fin n0 × Fin n1 × Fin n2`, so a sum over all indices of an array
  is the sum over its first coordinate of the sum over its second of the sum over its third. Stated for any
  additive commutative monoid; the rank-2 case is the library's `ValueIdx.sum_idx2`.
-/
import Idealize.ShloMosaic.Lib.ValueIdx

noncomputable section

open scoped BigOperators

namespace Cert.LibSumIdx

open Idealize.ShloMosaic Idealize.ShloMosaic.ValueIdx

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates, outermost first. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibSumIdx

end
-- ==== Proof.KPay.lean ====
/-
  One block's two sums, read at the exact instance.

  The body turns a (256, 8192) block of scores x and of labels k into two numbers. With m the labels' indicator
  (0 or 1), per row rho of the block:
    count  = sum_q m,   target term = (count - sum_q m * x) / count,
    non-target term = (sum_q relu x - sum_q m * relu x) / (8192 - count),
  and the two numbers are the sums of these terms over the block's 256 rows. Over the extended reals a lane
  reduction is the finite sum over the lanes, a reduction into a one-element vector is the sum over every index,
  and the casts between (256), (256,1) and (1,256,1) keep the row. So the two payloads are the sums over the rows of
  the row terms of Spec.lean, read on the block.
-/
import proofs.«402006_j8486855377002_3_alg».proof.Proof.Spec
import proofs.«402006_j8486855377002_3_alg».proof.Proof.LibSumIdx
import proofs.«402006_j8486855377002_3_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.KValue

open Idealize.ShloMosaic Idealize.ShloMosaic.ValueIdx Cert.KernelIdeal Cert.KernelIdeal.Gen

/-- A lane sum of a (256, 8192) block kept as a column: at row `rho` the sum over the 8192 lanes. -/
theorem rowsum (v : FVec Ideal S256x8192 .f32) (h : S256x8192.Reduces [1] S256) (hc : S256.ShapeCasts S256x1)
    (hφ : FKind.Formats .f32) (hacc : (0x00000000#32 : BitVec 32) = FKind.add.neutral .f32 hφ) (ρ : Fin 256) :
    shapeCast S256x1 (multiReduction .add [1] S256 v 0x00000000#32 h hφ hacc) hc (ix2 ρ (0 : Fin 1))
      = ∑ q : Fin 8192, v (ix2 ρ q) := by
  refine (shapeCast_apply _ hc (ix2 ρ (0 : Fin 1)) (ix1 ρ) ?_).trans ?_
  · rw [Shape.rowMajor_val_one, Shape.rowMajor_val_two]
    show ρ.val = ρ.val * 1 + 0
    omega
  · refine (Ideal.multiReduction_add_single v 0x00000000#32 h hφ hacc (ix1 ρ)).trans ?_
    exact Finset.sum_congr rfl fun q _ =>
      congrArg v (funext fun a => Fin.ext (by match a with | ⟨0, _⟩ => rfl | ⟨1, _⟩ => rfl))

/-- The sum of a (256, 1) column, taken as the body takes it (viewed (1, 256, 1), reduced over both long axes into
    one element, which is then extracted): the sum over the 256 rows. -/
theorem colsum (w : FVec Ideal S256x1 .f32) (hc : S256x1.ShapeCasts S1x256x1) (h : S1x256x1.Reduces [1, 2] S1)
    (hc' : S1.ShapeCasts S1x1x1) (hp : ∀ a, (![0, 0, 0] : Fin 3 → Nat) a < S1x1x1.size a)
    (hφ : FKind.Formats .f32) (hacc : (0x00000000#32 : BitVec 32) = FKind.add.neutral .f32 hφ) :
    extractAt ![0, 0, 0] (shapeCast S1x1x1 (multiReduction .add [1, 2] S1 (shapeCast S1x256x1 w hc) 0x00000000#32 h hφ hacc) hc') hp
      = ∑ ρ : Fin 256, w (ix2 ρ (0 : Fin 1)) := by
  unfold extractAt
  refine (shapeCast_apply _ hc' _ (ix1 (0 : Fin 1)) ?_).trans ?_
  · rw [Shape.rowMajor_val_one, Shape.rowMajor_val_three]
    rfl
  · refine (Ideal.multiReduction_add_total (shapeCast S1x256x1 w hc) 0x00000000#32 h (fun b => by fin_cases b; rfl) hφ hacc _).trans ?_
    rw [Cert.LibSumIdx.sum_idx3]
    rw [Fin.sum_univ_one]
    refine Finset.sum_congr rfl fun ρ _ => ?_
    rw [Fin.sum_univ_one]
    refine shapeCast_apply w hc _ (ix2 ρ (0 : Fin 1)) ?_
    rw [Shape.rowMajor_val_two, Shape.rowMajor_val_three]
    show ρ.val * 1 + 0 = (0 * 256 + ρ.val) * 1 + 0
    omega

variable (k : Vec Ideal S256x8192 .i32) (x : Vec Ideal S256x8192 .f32)

/-- The labels' indicator, entry by entry. -/
theorem mask_apply (i : S256x8192.Idx) : k0_pay7 (F := Ideal) k i = RankLoss.ind (k i) := rfl

/-- The count column at row `rho`. -/
theorem count_apply (ρ : Fin 256) : k0_pay8 (F := Ideal) k (ix2 ρ (0 : Fin 1)) = RankLoss.cnt k ρ := by
  unfold k0_pay8 RankLoss.cnt
  dsimp only
  refine (rowsum _ _ _ _ _ ρ).trans (Finset.sum_congr rfl fun q _ => ?_)
  exact mask_apply k _

/-- The positive part, entry by entry. -/
theorem relu_apply (i : S256x8192.Idx) :
    maximumf (subf x (broadcast S256x8192 (Scalar.ofBits (F := Ideal) .f32 0x00000000#32)))
      (broadcast S256x8192 (Scalar.ofBits (F := Ideal) .f32 0x00000000#32)) i = RankLoss.relu (x i) := by
  rw [maximumf_apply, subf_apply, broadcast_apply]
  show max (x i - Ideal.ofBits .f32 0x00000000#32) (Ideal.ofBits .f32 0x00000000#32) = _
  rw [Ideal.ofBits_zero_f32]
  rfl

/-- The block's sum of target terms, spread over the accumulator tile: every lane holds the sum over the rows. -/
theorem payT (y : S8x128.Idx) : k0_pay10 (F := Ideal) k x y = ∑ ρ : Fin 256, RankLoss.rowT x k ρ := by
  unfold k0_pay10
  dsimp only
  rw [broadcast_apply]
  refine (colsum _ _ _ _ _ _ _).trans (Finset.sum_congr rfl fun ρ _ => ?_)
  rw [divf_apply, subf_apply, count_apply]
  unfold RankLoss.rowT
  refine congrArg (fun s => Ideal.div (RankLoss.cnt k ρ - s) (RankLoss.cnt k ρ))
    ((rowsum _ _ _ _ _ ρ).trans (Finset.sum_congr rfl fun q _ => ?_))
  rw [mulf_apply, mask_apply]

/-- The block's sum of non-target terms. -/
theorem payNT : k0_pay9 (F := Ideal) k x = ∑ ρ : Fin 256, RankLoss.rowNT x k ρ := by
  unfold k0_pay9
  dsimp only
  refine (colsum _ _ _ _ _ _ _).trans (Finset.sum_congr rfl fun ρ _ => ?_)
  rw [divf_apply, subf_apply, subf_apply, broadcast_apply, count_apply]
  unfold RankLoss.rowNT
  refine congrArg₂ (fun s s' => Ideal.div (s - s') (Ideal.ofBits .f32 0x46000000#32 - RankLoss.cnt k ρ))
    ((rowsum _ _ _ _ _ ρ).trans (Finset.sum_congr rfl fun q _ => ?_))
    ((rowsum _ _ _ _ _ ρ).trans (Finset.sum_congr rfl fun q _ => ?_))
  · exact relu_apply x _
  · rw [mulf_apply, mask_apply, relu_apply]

end Cert.KernelIdeal.KValue

end
-- ==== Proof.SpecSums.lean ====
/-
  Rows of the whole matrix seen from a block, and the regrouping of the sum over all rows.

  A row term depends only on its row's entries, so a block that holds rows of the matrix has those rows' terms.
  The 4096 rows are 16 blocks of 256 rows, and the 16 blocks are 2 shards of 8 blocks: a sum over a range of
  a * b naturals is the sum over i < a of the sums over j < b at i * b + j.
-/
import proofs.«402006_j8486855377002_3_alg».proof.Proof.Spec

noncomputable section

open scoped BigOperators

namespace RankLoss

open Idealize.ShloMosaic Idealize.ShloMosaic.ValueIdx

/-- Two matrices that agree on a row (of each) have the same count there. -/
theorem cnt_congr {R R' : Nat} (M : (Mat R).Idx → BitVec 32) (M' : (Mat R').Idx → BitVec 32) (r : Fin R) (r' : Fin R')
    (hM : ∀ q : Fin 8192, M (ix2 r q) = M' (ix2 r' q)) : cnt M r = cnt M' r' := by
  unfold cnt
  exact Finset.sum_congr rfl fun q _ => by rw [hM q]

/-- … and the same target term, -/
theorem rowT_congr {R R' : Nat} (X : (Mat R).Idx → EReal) (M : (Mat R).Idx → BitVec 32)
    (X' : (Mat R').Idx → EReal) (M' : (Mat R').Idx → BitVec 32) (r : Fin R) (r' : Fin R')
    (hX : ∀ q : Fin 8192, X (ix2 r q) = X' (ix2 r' q)) (hM : ∀ q : Fin 8192, M (ix2 r q) = M' (ix2 r' q)) :
    rowT X M r = rowT X' M' r' := by
  unfold rowT
  rw [cnt_congr M M' r r' hM]
  exact congrArg (fun s => Ideal.div (cnt M' r' - s) (cnt M' r'))
    (Finset.sum_congr rfl fun q _ => by rw [hX q, hM q])

/-- … and the same non-target term. -/
theorem rowNT_congr {R R' : Nat} (X : (Mat R).Idx → EReal) (M : (Mat R).Idx → BitVec 32)
    (X' : (Mat R').Idx → EReal) (M' : (Mat R').Idx → BitVec 32) (r : Fin R) (r' : Fin R')
    (hX : ∀ q : Fin 8192, X (ix2 r q) = X' (ix2 r' q)) (hM : ∀ q : Fin 8192, M (ix2 r q) = M' (ix2 r' q)) :
    rowNT X M r = rowNT X' M' r' := by
  unfold rowNT
  rw [cnt_congr M M' r r' hM]
  exact congrArg₂ (fun s s' => Ideal.div (s - s') (Ideal.ofBits .f32 0x46000000#32 - cnt M' r'))
    (Finset.sum_congr rfl fun q _ => by rw [hX q]) (Finset.sum_congr rfl fun q _ => by rw [hX q, hM q])

/-- The target term of row `n`, for every natural `n` (zero past the last row). -/
def rowTn (X : (Mat 4096).Idx → EReal) (M : (Mat 4096).Idx → BitVec 32) (n : Nat) : EReal :=
  if h : n < 4096 then rowT X M ⟨n, h⟩ else 0

/-- The non-target term of row `n`, for every natural `n`. -/
def rowNTn (X : (Mat 4096).Idx → EReal) (M : (Mat 4096).Idx → BitVec 32) (n : Nat) : EReal :=
  if h : n < 4096 then rowNT X M ⟨n, h⟩ else 0

/-- A sum over the first `a * b` naturals, block by block. -/
theorem sum_range_mul {β : Type*} [AddCommMonoid β] (a b : Nat) (g : Nat → β) :
    ∑ n ∈ Finset.range (a * b), g n = ∑ i ∈ Finset.range a, ∑ j ∈ Finset.range b, g (i * b + j) := by
  induction a with
  | zero => simp
  | succ a ih => rw [Nat.succ_mul, Finset.sum_range_add, ih, Finset.sum_range_succ]

/-- The sum of the target terms over the rows: 2 shards of 8 blocks of 256 rows. -/
theorem sum_rowT (X : (Mat 4096).Idx → EReal) (M : (Mat 4096).Idx → BitVec 32) :
    ∑ r : Fin 4096, rowT X M r
      = ∑ s ∈ Finset.range 2, ∑ j ∈ Finset.range 8, ∑ ρ ∈ Finset.range 256, rowTn X M ((s * 8 + j) * 256 + ρ) := by
  have h1 : ∑ r : Fin 4096, rowT X M r = ∑ n ∈ Finset.range 4096, rowTn X M n := by
    rw [← Fin.sum_univ_eq_sum_range (fun n => rowTn X M n) 4096]
    exact Finset.sum_congr rfl fun r _ => by unfold rowTn; rw [dif_pos r.isLt]
  rw [h1, show (4096 : Nat) = (2 * 8) * 256 from rfl, sum_range_mul (2 * 8) 256, sum_range_mul 2 8]

/-- The same for the non-target terms. -/
theorem sum_rowNT (X : (Mat 4096).Idx → EReal) (M : (Mat 4096).Idx → BitVec 32) :
    ∑ r : Fin 4096, rowNT X M r
      = ∑ s ∈ Finset.range 2, ∑ j ∈ Finset.range 8, ∑ ρ ∈ Finset.range 256, rowNTn X M ((s * 8 + j) * 256 + ρ) := by
  have h1 : ∑ r : Fin 4096, rowNT X M r = ∑ n ∈ Finset.range 4096, rowNTn X M n := by
    rw [← Fin.sum_univ_eq_sum_range (fun n => rowNTn X M n) 4096]
    exact Finset.sum_congr rfl fun r _ => by unfold rowNTn; rw [dif_pos r.isLt]
  rw [h1, show (4096 : Nat) = (2 * 8) * 256 from rfl, sum_range_mul (2 * 8) 256, sum_range_mul 2 8]

end RankLoss

end
-- ==== Proof.KAccum.lean ====
/-
  The two accumulators after every step, and the two output arrays after the run.

  Block t of the 16 row blocks holds rows 256 t … 256 t + 255 of both matrices, so its two sums are the sums of the
  whole matrix's row terms over those rows (aT t, aNT t). The accumulators restart at the steps divisible by 8 and
  add one block's sum at every step, so after step n each lane of an accumulator holds zero plus the sums of the
  blocks from the shard's first (n - n mod 8) to n; at a shard's last step (n mod 8 = 7) that is the whole shard, and
  it is what the step copies into the shard's tile of the (2, 8, 128) output. Every entry of an output array is in
  the tile of its shard, so the arrays end holding, at (s, a, b), zero plus the eight block sums of shard s.
-/
import proofs.«402006_j8486855377002_3_alg».proof.Proof.KPieces
import proofs.«402006_j8486855377002_3_alg».proof.Proof.KPay
import proofs.«402006_j8486855377002_3_alg».proof.Proof.SpecSums

noncomputable section

open scoped BigOperators

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- The score block and the label block the body finds at step `t`, at their literal types. -/
abbrev xblk (c : Dev nD) (t : Fin cfg0.N) : Vec Ideal S256x8192 .f32 := iblk m c 0 t
abbrev kblk (c : Dev nD) (t : Fin cfg0.N) : Vec Ideal S256x8192 .i32 := iblk m c 1 t

/-- The two argument matrices. -/
abbrev Xs (c : Dev nD) : (RankLoss.Mat 4096).Idx → EReal := m ((c : Thread nD τ).loc main_arg0)
abbrev Ms (c : Dev nD) : (RankLoss.Mat 4096).Idx → BitVec 32 := m ((c : Thread nD τ).loc main_arg1)

/-- Both inputs' block index at step `t` is (t, 0): decided over the 16 steps. -/
theorem idx_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- Row `rho` of the score block at step `t` is row 256 t + rho of the score matrix. -/
theorem xblk_apply (c : Dev nD) (t : Fin cfg0.N) (ρ : Fin 256) (q : Fin 8192) (hlt : t.val * 256 + ρ.val < 4096) :
    xblk m c t (ix2 ρ q) = Xs m c (ix2 ⟨t.val * 256 + ρ.val, hlt⟩ q) := by
  obtain ⟨h0, h1, -, -⟩ := idx_in t
  show iblk m c 0 t (ix2 ρ q) = _
  unfold iblk
  rw [View.read_apply]
  show V m c main_arg0 _ = m ((c : Thread nD τ).loc main_arg0) _
  unfold V
  congr 1
  funext a
  apply Fin.ext
  match a with
  | ⟨0, _⟩ => show win0_0.index t 0 * 256 + 1 * ρ.val = t.val * 256 + ρ.val; rw [h0]; omega
  | ⟨1, _⟩ => show win0_0.index t 1 * 8192 + 1 * q.val = q.val; rw [h1]; omega

/-- The same for the labels. -/
theorem kblk_apply (c : Dev nD) (t : Fin cfg0.N) (ρ : Fin 256) (q : Fin 8192) (hlt : t.val * 256 + ρ.val < 4096) :
    kblk m c t (ix2 ρ q) = Ms m c (ix2 ⟨t.val * 256 + ρ.val, hlt⟩ q) := by
  obtain ⟨-, -, h0, h1⟩ := idx_in t
  show iblk m c 1 t (ix2 ρ q) = _
  unfold iblk
  rw [View.read_apply]
  show V m c main_arg1 _ = m ((c : Thread nD τ).loc main_arg1) _
  unfold V
  congr 1
  funext a
  apply Fin.ext
  match a with
  | ⟨0, _⟩ => show win0_1.index t 0 * 256 + 1 * ρ.val = t.val * 256 + ρ.val; rw [h0]; omega
  | ⟨1, _⟩ => show win0_1.index t 1 * 8192 + 1 * q.val = q.val; rw [h1]; omega

/-- Block `n`'s sum of target terms, of the whole matrices' rows 256 n … 256 n + 255. -/
def aT (c : Dev nD) (n : Nat) : EReal := ∑ ρ ∈ Finset.range 256, RankLoss.rowTn (Xs m c) (Ms m c) (n * 256 + ρ)
/-- Block `n`'s sum of non-target terms. -/
def aNT (c : Dev nD) (n : Nat) : EReal := ∑ ρ ∈ Finset.range 256, RankLoss.rowNTn (Xs m c) (Ms m c) (n * 256 + ρ)

/-- What step `t` adds to every lane of the target accumulator. -/
theorem blkT (c : Dev nD) (t : Fin cfg0.N) (y : S8x128.Idx) :
    k0_pay10 (F := Ideal) (kblk m c t) (xblk m c t) y = aT m c t.val := by
  refine (payT (kblk m c t) (xblk m c t) y).trans ?_
  unfold aT
  rw [← Fin.sum_univ_eq_sum_range (fun j => RankLoss.rowTn (Xs m c) (Ms m c) (t.val * 256 + j)) 256]
  refine Finset.sum_congr rfl fun ρ _ => ?_
  have hN : cfg0.N = 16 := N_0
  have hlt : t.val * 256 + ρ.val < 4096 := by have := t.isLt; have := ρ.isLt; omega
  unfold RankLoss.rowTn
  rw [dif_pos hlt]
  exact RankLoss.rowT_congr _ _ _ _ ρ ⟨_, hlt⟩ (fun q => xblk_apply m c t ρ q hlt) (fun q => kblk_apply m c t ρ q hlt)

/-- What step `t` adds to every lane of the non-target accumulator. -/
theorem blkNT (c : Dev nD) (t : Fin cfg0.N) :
    k0_pay9 (F := Ideal) (kblk m c t) (xblk m c t) = aNT m c t.val := by
  refine (payNT (kblk m c t) (xblk m c t)).trans ?_
  unfold aNT
  rw [← Fin.sum_univ_eq_sum_range (fun j => RankLoss.rowNTn (Xs m c) (Ms m c) (t.val * 256 + j)) 256]
  refine Finset.sum_congr rfl fun ρ _ => ?_
  have hN : cfg0.N = 16 := N_0
  have hlt : t.val * 256 + ρ.val < 4096 := by have := t.isLt; have := ρ.isLt; omega
  unfold RankLoss.rowNTn
  rw [dif_pos hlt]
  exact RankLoss.rowNT_congr _ _ _ _ ρ ⟨_, hlt⟩ (fun q => xblk_apply m c t ρ q hlt) (fun q => kblk_apply m c t ρ q hlt)

/-- A lane of the stepped target accumulator: the lane before plus the block's sum. -/
theorem stepT_apply (c : Dev nD) (t : Fin cfg0.N) (acc : Vec Ideal S8x128 .f32) (y : S8x128.Idx) :
    stepT acc (kblk m c t) (xblk m c t) y = acc y + aT m c t.val := by
  unfold stepT
  rw [addf_apply, blkT]

/-- A lane of the stepped non-target accumulator. -/
theorem stepNT_apply (c : Dev nD) (t : Fin cfg0.N) (acc : Vec Ideal S8x128 .f32) (y : S8x128.Idx) :
    stepNT acc (kblk m c t) (xblk m c t) y = acc y + aNT m c t.val := by
  unfold stepNT
  rw [addf_apply, broadcast_apply, blkNT]

/-- The reset value is zero in every lane. -/
theorem zero_apply (y : S8x128.Idx) : (zero : Vec Ideal S8x128 .f32) y = 0 := Ideal.ofBits_zero_f32

/-! ## The accumulators after each step -/

/-- After a shard's first step: zero plus the block's sum. -/
theorem acc_first (c : Dev nD) (t : Fin cfg0.N) (h0 : t.val % 8 = 0) (h1 : ¬t.val % 8 = 7) (y : S8x128.Idx) :
    (outsAt0 m c t.val t.isLt).2.2.1 y = 0 + aT m c t.val ∧ (outsAt0 m c t.val t.isLt).2.2.2 y = 0 + aNT m c t.val := by
  rw [outsAt0_A m c t h0 h1]
  dsimp only
  constructor
  · refine (congrFun (sA0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)) y).trans ?_
    rw [stepT_apply m c t zero y, zero_apply]
  · refine (congrFun (sA1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)) y).trans ?_
    rw [stepNT_apply m c t zero y, zero_apply]

/-- After any other step: what the step before left plus the block's sum. -/
theorem acc_next (c : Dev nD) (t : Fin cfg0.N) (h0 : ¬t.val % 8 = 0) (y : S8x128.Idx) :
    (outsAt0 m c t.val t.isLt).2.2.1 y
        = (outsAt0 m c (t.val - 1) (Nat.lt_of_le_of_lt (Nat.sub_le _ _) t.isLt)).2.2.1 y + aT m c t.val
    ∧ (outsAt0 m c t.val t.isLt).2.2.2 y
        = (outsAt0 m c (t.val - 1) (Nat.lt_of_le_of_lt (Nat.sub_le _ _) t.isLt)).2.2.2 y + aNT m c t.val := by
  by_cases h1 : t.val % 8 = 7
  · rw [outsAt0_C m c t h0 h1]
    dsimp only
    constructor
    · refine (congrFun (sC0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) y).trans ?_
      exact stepT_apply m c t _ y
    · refine (congrFun (sC1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) y).trans ?_
      exact stepNT_apply m c t _ y
  · rw [outsAt0_B m c t h0 h1]
    dsimp only
    constructor
    · refine (congrFun (sB0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) y).trans ?_
      exact stepT_apply m c t _ y
    · refine (congrFun (sB1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) y).trans ?_
      exact stepNT_apply m c t _ y

/-- The accumulators after step `n`: zero plus the sums of the blocks from the shard's first to `n`. -/
theorem acc_eq (c : Dev nD) : ∀ (n : Nat) (h : n < cfg0.N) (y : S8x128.Idx),
    (outsAt0 m c n h).2.2.1 y = 0 + ∑ s ∈ Finset.range (n % 8 + 1), aT m c (n - n % 8 + s)
    ∧ (outsAt0 m c n h).2.2.2 y = 0 + ∑ s ∈ Finset.range (n % 8 + 1), aNT m c (n - n % 8 + s) := by
  intro n
  induction n with
  | zero =>
    intro h y
    have := acc_first m c ⟨0, h⟩ rfl (by show ¬(0 % 8 = 7); decide) y
    simpa using this
  | succ n ih =>
    intro h y
    by_cases h0 : (n + 1) % 8 = 0
    · have h1 : ¬(n + 1) % 8 = 7 := by omega
      have := acc_first m c ⟨n + 1, h⟩ h0 h1 y
      rw [h0]
      simpa using this
    · obtain ⟨e1, e2⟩ := acc_next m c ⟨n + 1, h⟩ h0 y
      obtain ⟨i1, i2⟩ := ih (Nat.lt_of_succ_lt h) y
      have hm : (n + 1) % 8 = n % 8 + 1 := by omega
      have hb : n + 1 - (n % 8 + 1) = n - n % 8 := by omega
      have hl : n - n % 8 + (n % 8 + 1) = n + 1 := by omega
      constructor
      · refine e1.trans ?_
        show (outsAt0 m c n _).2.2.1 y + aT m c (n + 1) = _
        rw [i1, hm, hb, Finset.sum_range_succ _ (n % 8 + 1), hl, add_assoc]
      · refine e2.trans ?_
        show (outsAt0 m c n _).2.2.2 y + aNT m c (n + 1) = _
        rw [i2, hm, hb, Finset.sum_range_succ _ (n % 8 + 1), hl, add_assoc]

end Cert.KernelIdeal.KValue

end
-- ==== Proof.KFinal.lean ====
/-
  The two output arrays after the run.

  At a shard's last step the body copies each accumulator into the shard's (1, 8, 128) output tile, a unit axis in
  front; that tile is block (s, 0, 0) of the (2, 8, 128) output, written back at that step only. The step is
  8 s + 7, and the accumulator then holds zero plus the eight block sums of shard s. Every index (s, a, b) of an
  output lies in the tile written back at step 8 s + 7, so the arrays end holding, at (s, a, b), zero plus the
  sums of blocks 8 s … 8 s + 7.
-/
import proofs.«402006_j8486855377002_3_alg».proof.Proof.KAccum

noncomputable section

open scoped BigOperators

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- At a shard's last step each output tile holds its accumulator, a unit axis added in front. -/
theorem out_last (c : Dev nD) (t : Fin cfg0.N) (h0 : ¬t.val % 8 = 0) (h1 : t.val % 8 = 7) (y : S1x8x128.Idx) :
    (outsAt0 m c t.val t.isLt).1 y = (outsAt0 m c t.val t.isLt).2.2.1 (fun a => y a.succ)
    ∧ (outsAt0 m c t.val t.isLt).2.1 y = (outsAt0 m c t.val t.isLt).2.2.2 (fun a => y a.succ) := by
  rw [outsAt0_C m c t h0 h1]
  dsimp only
  constructor
  · refine (congrFun (oC2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) y).trans ?_
    refine (shapeCast_addUnit_apply ![8, 128] _ _ y).trans ?_
    exact (congrFun (sC0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) _).symm
  · refine (congrFun (oC3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) y).trans ?_
    refine (shapeCast_addUnit_apply ![8, 128] _ _ y).trans ?_
    exact (congrFun (sC1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) _).symm

/-- Both outputs' block index at step `t` is (t / 8, 0, 0): decided over the 16 steps. -/
theorem idx_out : ∀ t : Fin cfg0.N, win0_2.index t (0 : Fin 3) = t.val / 8 ∧ win0_2.index t (1 : Fin 3) = 0
    ∧ win0_2.index t (2 : Fin 3) = 0 ∧ win0_3.index t (0 : Fin 3) = t.val / 8 ∧ win0_3.index t (1 : Fin 3) = 0
    ∧ win0_3.index t (2 : Fin 3) = 0 :=
  (by decide +kernel : ∀ t : Fin grid0.N, win0_2.index t (0 : Fin 3) = t.val / 8 ∧ win0_2.index t (1 : Fin 3) = 0
    ∧ win0_2.index t (2 : Fin 3) = 0 ∧ win0_3.index t (0 : Fin 3) = t.val / 8 ∧ win0_3.index t (1 : Fin 3) = 0
    ∧ win0_3.index t (2 : Fin 3) = 0)

/-- The target output after the run: at (s, a, b), zero plus the eight block sums of shard `s`. -/
def GT (c : Dev nD) : Buf (Elt Ideal) ((c : Thread nD τ).loc main_v0_0) :=
  fun i => 0 + ∑ j ∈ Finset.range 8, aT m c ((i 0).val * 8 + j)

/-- The non-target output after the run. -/
def GNT (c : Dev nD) : Buf (Elt Ideal) ((c : Thread nD τ).loc main_v0_1) :=
  fun i => 0 + ∑ j ∈ Finset.range 8, aNT m c ((i 0).val * 8 + j)

/-- What a write-back of the target output writes is the block of `GT`. -/
theorem flushedT (c : Dev nD) (t : Fin cfg0.N) (hf : (cfg0.win 2).flush t = true) :
    (dats m 0 c).flushed 2 t = ((cfg0.win 2).blk t).view.read (Elt Ideal) (GT m c) := by
  have hN : cfg0.N = 16 := N_0
  have h7 : t.val % 8 = 7 := (flush0_2 t).mp hf
  have h0 : ¬t.val % 8 = 0 := by omega
  obtain ⟨i0, -, -, -, -, -⟩ := idx_out t
  funext y
  show (dats m 0 c).after 2 t ((cfg0.win 2).xinj (grid0.coords t) y) = _
  rw [after0_2]
  refine ((out_last m c t h0 h7 _).1).trans ?_
  refine ((acc_eq m c t.val t.isLt _).1).trans ?_
  rw [View.read_apply]
  show _ = GT m c (((cfg0.win 2).blk t).view.emb y)
  unfold GT
  have hy : (y 0).val < 1 := (y 0).isLt
  have e : ((((cfg0.win 2).blk t).view.emb y) 0).val = t.val / 8 := by
    show win0_2.index t 0 * 1 + 1 * (y 0).val = t.val / 8
    rw [i0]; omega
  have e' : t.val - t.val % 8 = t.val / 8 * 8 := by omega
  rw [e, h7] at *
  rw [e']

/-- The same for the non-target output. -/
theorem flushedNT (c : Dev nD) (t : Fin cfg0.N) (hf : (cfg0.win 3).flush t = true) :
    (dats m 0 c).flushed 3 t = ((cfg0.win 3).blk t).view.read (Elt Ideal) (GNT m c) := by
  have hN : cfg0.N = 16 := N_0
  have h7 : t.val % 8 = 7 := (flush0_3 t).mp hf
  have h0 : ¬t.val % 8 = 0 := by omega
  obtain ⟨-, -, -, i0, -, -⟩ := idx_out t
  funext y
  show (dats m 0 c).after 3 t ((cfg0.win 3).xinj (grid0.coords t) y) = _
  rw [after0_3]
  refine ((out_last m c t h0 h7 _).2).trans ?_
  refine ((acc_eq m c t.val t.isLt _).2).trans ?_
  rw [View.read_apply]
  show _ = GNT m c (((cfg0.win 3).blk t).view.emb y)
  unfold GNT
  have hy : (y 0).val < 1 := (y 0).isLt
  have e : ((((cfg0.win 3).blk t).view.emb y) 0).val = t.val / 8 := by
    show win0_3.index t 0 * 1 + 1 * (y 0).val = t.val / 8
    rw [i0]; omega
  have e' : t.val - t.val % 8 = t.val / 8 * 8 := by omega
  rw [e, h7] at *
  rw [e']

/-- Every index of the target output lies in the tile written back at its shard's last step: the array ends at `GT`. -/
theorem finalT (c : Dev nD) : (dats m 0 c).arrAt 2 cfg0.N = GT m c :=
  (dats m 0 c).arrAt_eq_of_cover 2 (GT m c) (flushedT m c) fun i => by
    have hN : cfg0.N = 16 := N_0
    have hi0 : (i 0).val < 2 := (i 0).isLt
    have hi1 : (i 1).val < 8 := (i 1).isLt
    have hi2 : (i 2).val < 128 := (i 2).isLt
    have hlt : (i 0).val * 8 + 7 < cfg0.N := by omega
    refine ⟨⟨(i 0).val * 8 + 7, hlt⟩, (flush0_2 _).mpr (by show ((i 0).val * 8 + 7) % 8 = 7; omega), ?_⟩
    obtain ⟨j0, j1, j2, -, -, -⟩ := idx_out ⟨(i 0).val * 8 + 7, hlt⟩
    show i ∈ ((View.whole main_v0_0).slice (win0_2.rect ⟨(i 0).val * 8 + 7, hlt⟩)).set
    rw [View.set_slice_whole, Rect.mem_set_unit]
    intro a
    match a with
    | ⟨0, _⟩ =>
      show win0_2.index ⟨(i 0).val * 8 + 7, hlt⟩ 0 * 1 ≤ (i 0 : Nat) ∧ (i 0 : Nat) < win0_2.index ⟨(i 0).val * 8 + 7, hlt⟩ 0 * 1 + 1
      rw [j0]; dsimp only; omega
    | ⟨1, _⟩ =>
      show win0_2.index ⟨(i 0).val * 8 + 7, hlt⟩ 1 * 8 ≤ (i 1 : Nat) ∧ (i 1 : Nat) < win0_2.index ⟨(i 0).val * 8 + 7, hlt⟩ 1 * 8 + 8
      rw [j1]; omega
    | ⟨2, _⟩ =>
      show win0_2.index ⟨(i 0).val * 8 + 7, hlt⟩ 2 * 128 ≤ (i 2 : Nat) ∧ (i 2 : Nat) < win0_2.index ⟨(i 0).val * 8 + 7, hlt⟩ 2 * 128 + 128
      rw [j2]; omega

/-- The same for the non-target output. -/
theorem finalNT (c : Dev nD) : (dats m 0 c).arrAt 3 cfg0.N = GNT m c :=
  (dats m 0 c).arrAt_eq_of_cover 3 (GNT m c) (flushedNT m c) fun i => by
    have hN : cfg0.N = 16 := N_0
    have hi0 : (i 0).val < 2 := (i 0).isLt
    have hi1 : (i 1).val < 8 := (i 1).isLt
    have hi2 : (i 2).val < 128 := (i 2).isLt
    have hlt : (i 0).val * 8 + 7 < cfg0.N := by omega
    refine ⟨⟨(i 0).val * 8 + 7, hlt⟩, (flush0_3 _).mpr (by show ((i 0).val * 8 + 7) % 8 = 7; omega), ?_⟩
    obtain ⟨-, -, -, j0, j1, j2⟩ := idx_out ⟨(i 0).val * 8 + 7, hlt⟩
    show i ∈ ((View.whole main_v0_1).slice (win0_3.rect ⟨(i 0).val * 8 + 7, hlt⟩)).set
    rw [View.set_slice_whole, Rect.mem_set_unit]
    intro a
    match a with
    | ⟨0, _⟩ =>
      show win0_3.index ⟨(i 0).val * 8 + 7, hlt⟩ 0 * 1 ≤ (i 0 : Nat) ∧ (i 0 : Nat) < win0_3.index ⟨(i 0).val * 8 + 7, hlt⟩ 0 * 1 + 1
      rw [j0]; dsimp only; omega
    | ⟨1, _⟩ =>
      show win0_3.index ⟨(i 0).val * 8 + 7, hlt⟩ 1 * 8 ≤ (i 1 : Nat) ∧ (i 1 : Nat) < win0_3.index ⟨(i 0).val * 8 + 7, hlt⟩ 1 * 8 + 8
      rw [j1]; omega
    | ⟨2, _⟩ =>
      show win0_3.index ⟨(i 0).val * 8 + 7, hlt⟩ 2 * 128 ≤ (i 2 : Nat) ∧ (i 2 : Nat) < win0_3.index ⟨(i 0).val * 8 + 7, hlt⟩ 2 * 128 + 128
      rw [j2]; omega

end Cert.KernelIdeal.KValue

end
-- ==== Proof.KTail.lean ====
/-
  The three results of the kernel program.

  After the run each (2, 8, 128) output holds, at (s, a, b), zero plus the eight block sums of shard s. The lines
  after the region take entry (s, 0, 0) of each shard, add the two from zero, divide by 4096, and for the third
  result add the two quotients and halve. Two shards of eight blocks of 256 rows are the 4096 rows, so the two
  quotients are the means of the row terms over all rows: the ranking loss of Spec.lean.
-/
import proofs.«402006_j8486855377002_3_alg».proof.Proof.KFinal
import Idealize.ShloMosaic.Lib.StableHlo.Run

noncomputable section

open scoped BigOperators

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- Entry (s, 0, 0) of each of the two shards of an output, added from zero. -/
theorem shardsum (G : FVec Ideal S2x8x128 .f32) (hs : S2x8x128.Slices ![0, 0, 0] S2x1x1) (hc : S2x1x1.ShapeCasts S2)
    (hr : S2.ReducesTo [0] S_) (hu : 0 < S_.numel) (i : S_.Idx) :
    Host.reduceAdd (F := Ideal) (shapeCast S2 (extractStridedSlice S2x1x1 ![0, 0, 0] G hs) hc)
        (constant (F := Ideal) S_ .f32 0x00000000#32) hr hu i
      = 0 + ∑ k : Fin 2, G (ix3 k (0 : Fin 8) (0 : Fin 128)) := by
  simp only [Host.reduceAdd, Ideal.hostReduceAdd_def]
  refine (Ideal.hostReduceAdd_total hr (fun b => b.elim0) _ _ i).trans ?_
  rw [Cert.LibSumIdx.sum_idx1]
  show Ideal.ofBits .f32 0x00000000#32 + _ = _
  rw [Ideal.ofBits_zero_f32]
  refine congrArg (0 + ·) (Finset.sum_congr rfl fun k _ => ?_)
  refine (shapeCast_apply _ hc (ix1 k) (ix3 k (0 : Fin 1) (0 : Fin 1)) ?_).trans ?_
  · rw [Shape.rowMajor_val_one, Shape.rowMajor_val_three]
    show (k.val * 1 + 0) * 1 + 0 = k.val
    omega
  · exact extractStridedSlice_apply ![0, 0, 0] G hs (ix3 k (0 : Fin 1) (0 : Fin 1)) (ix3 k (0 : Fin 8) (0 : Fin 128))
      (fun a => by match a with
        | ⟨0, _⟩ => exact (Nat.zero_add k.val).symm
        | ⟨1, _⟩ => rfl
        | ⟨2, _⟩ => rfl)

/-- What the lines after the region make of one output array: the two shards' entries added, over 4096. -/
def mean2 (G : FVec Ideal S2x8x128 .f32) : FVec Ideal S_ .f32 :=
  Host.divf (F := Ideal)
    (Host.reduceAdd (F := Ideal) (shapeCast S2 (extractStridedSlice S2x1x1 ![0, 0, 0] G slices_S2x8x128_S2x1x1_0_0_0) shapeCasts_S2x1x1_S2)
      (constant (F := Ideal) S_ .f32 0x00000000#32) reducesTo_S2_S_d0 h_S_)
    (constant (F := Ideal) S_ .f32 0x45800000#32)

theorem mean2_apply (G : FVec Ideal S2x8x128 .f32) (i : S_.Idx) :
    mean2 G i = Ideal.div (0 + ∑ k : Fin 2, G (ix3 k (0 : Fin 8) (0 : Fin 128))) (Ideal.ofBits .f32 0x45800000#32) := by
  unfold mean2
  show Ideal.div (Host.reduceAdd (F := Ideal) _ _ _ _ i) (Ideal.ofBits .f32 0x45800000#32) = _
  rw [shardsum]

/-- The target output's mean is the mean of the target terms over all rows. -/
theorem valT (c : Dev nD) : mean2 (GT m c) = fun _ => RankLoss.lossT (Xs m c) (Ms m c) := by
  funext i
  rw [mean2_apply]
  unfold RankLoss.lossT
  rw [RankLoss.sum_rowT]
  show Ideal.div (0 + ∑ k : Fin 2, (fun s : Nat => 0 + ∑ j ∈ Finset.range 8, aT m c (s * 8 + j)) k.val) _ = _
  rw [Fin.sum_univ_eq_sum_range (fun s : Nat => 0 + ∑ j ∈ Finset.range 8, aT m c (s * 8 + j)) 2]
  simp only [zero_add]
  rfl

/-- The non-target output's mean is the mean of the non-target terms over all rows. -/
theorem valNT (c : Dev nD) : mean2 (GNT m c) = fun _ => RankLoss.lossNT (Xs m c) (Ms m c) := by
  funext i
  rw [mean2_apply]
  unfold RankLoss.lossNT
  rw [RankLoss.sum_rowNT]
  show Ideal.div (0 + ∑ k : Fin 2, (fun s : Nat => 0 + ∑ j ∈ Finset.range 8, aNT m c (s * 8 + j)) k.val) _ = _
  rw [Fin.sum_univ_eq_sum_range (fun s : Nat => 0 + ∑ j ∈ Finset.range 8, aNT m c (s * 8 + j)) 2]
  simp only [zero_add]
  rfl

/-- The two outputs as the lines after the region find them. -/
theorem arrT (c : Dev nD) :
    Pipeline.withArrays (cfgs 0).spec c (V0 m c) (fun w => (dats m 0 c).arrAt w (cfgs 0).N) (Proc.devRef .tc main_v0_0) = GT m c :=
  (Pipeline.withArrays_arr spec0 launch0.win.arr_inj c _ _ 2).trans (finalT m c)

theorem arrNT (c : Dev nD) :
    Pipeline.withArrays (cfgs 0).spec c (V0 m c) (fun w => (dats m 0 c).arrAt w (cfgs 0).N) (Proc.devRef .tc main_v0_1) = GNT m c :=
  (Pipeline.withArrays_arr spec0 launch0.win.arr_inj c _ _ 3).trans (finalNT m c)

/-- The second result: the mean of the target terms. -/
theorem tailT (c : Dev nD) :
    Pipeline.afterTail₀ cfgs (dats m) 0 (V0 m) [hostOps1] c main_v7 = fun _ => RankLoss.lossT (Xs m c) (Ms m c) := by
  refine Eq.trans ?_ (valT m c)
  rw [← arrT m c]
  unfold Pipeline.afterTail₀
  show StableHlo.after hostOps1 _ (Proc.devRef .tc main_v7) = _
  after_results
  rfl

/-- The third result: the mean of the non-target terms. -/
theorem tailNT (c : Dev nD) :
    Pipeline.afterTail₀ cfgs (dats m) 0 (V0 m) [hostOps1] c main_v8 = fun _ => RankLoss.lossNT (Xs m c) (Ms m c) := by
  refine Eq.trans ?_ (valNT m c)
  rw [← arrNT m c]
  unfold Pipeline.afterTail₀
  show StableHlo.after hostOps1 _ (Proc.devRef .tc main_v8) = _
  after_results
  rfl

/-- The first result: half the sum of the two means. -/
theorem tailL (c : Dev nD) :
    Pipeline.afterTail₀ cfgs (dats m) 0 (V0 m) [hostOps1] c main_v10 = fun _ => RankLoss.loss (Xs m c) (Ms m c) := by
  have e : (fun _ => RankLoss.loss (Xs m c) (Ms m c) : FVec Ideal S_ .f32)
      = mulf (addf (mean2 (GT m c)) (mean2 (GNT m c))) (constant (F := Ideal) S_ .f32 0x3F000000#32) := by
    rw [valT, valNT]
    rfl
  refine Eq.trans ?_ e.symm
  rw [← arrT m c, ← arrNT m c]
  unfold Pipeline.afterTail₀
  show StableHlo.after hostOps1 _ (Proc.devRef .tc main_v10) = _
  after_results
  rfl

/-- The kernel program's run, read: its three results at the ranking loss of its two arguments, which end unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v10) = (fun _ => RankLoss.loss (Xs m c) (Ms m c))
      ∧ r.2.mem ((c.tc : Thread nD τ).loc main_v7) = (fun _ => RankLoss.lossT (Xs m c) (Ms m c))
      ∧ r.2.mem ((c.tc : Thread nD τ).loc main_v8) = (fun _ => RankLoss.lossNT (Xs m c) (Ms m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v10 (Pipeline.mem_restRefs_of main_v10 rfl (by decide))).trans (tailL m c),
     ((h c).2 main_v7 (Pipeline.mem_restRefs_of main_v7 rfl (by decide))).trans (tailT m c),
     ((h c).2 main_v8 (Pipeline.mem_restRefs_of main_v8 rfl (by decide))).trans (tailNT m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.KernelIdeal.KValue

end
-- ==== Proof.SpecLaws.lean ====
/-
  The laws that join the two spellings of a row of the ranking loss (Spec.lean).

  One program sums the indicators as numbers and subtracts the masked sum; the other selects, entry by entry,
  between (1 - x) and 0 (or between 0 and relu x) and sums that, and counts the targets as a sum of integer words
  that it converts once. With every score finite these agree:
    0 + sum_q (target ? 1 - x : 0)   = cnt - sum_q ind * x,
    0 + sum_q (target ? 0 : relu x)  = sum_q relu x - sum_q ind * relu x,
  and a word whose unsigned value is the number of set bits of the row converts to cnt.
-/
import proofs.«402006_j8486855377002_3_alg».proof.Proof.Spec
import Idealize.ShloMosaic.PureOps.Ideal.Laws
import Idealize.ShloMosaic.Lib.StableHlo.Predicate

noncomputable section

open scoped BigOperators

namespace RankLoss

open Idealize.ShloMosaic Idealize.ShloMosaic.ValueIdx

/-- The float word 1.0 denotes the real 1. -/
theorem one_word : Ideal.ofBits .f32 0x3F800000#32 = 1 := by
  simp [Ideal.ofBits, Ideal.ieee, -EReal.coe_mul]
  norm_num

/-- A one-bit word widened to 32 bits reads, as a signed integer, as 1 when the bit is set and as 0 otherwise. -/
private theorem toInt_setWidth_bit (b : BitVec 1) : (b.setWidth 32).toInt = if b = 1#1 then 1 else 0 := by
  rcases BitVec.eq_zero_or_eq_one b with rfl | rfl <;> decide

/-- The indicator is 1 on a set bit and 0 otherwise. -/
theorem ind_eq (w : BitVec 32) : ind w = if bit w = 1#1 then 1 else 0 := by
  unfold ind
  rw [toInt_setWidth_bit]
  split_ifs <;> simp

/-- A finite sum of real numbers, taken in the extended reals, is the real sum. -/
private theorem coe_sum {ι : Type} (s : Finset ι) (f : ι → ℝ) :
    (∑ i ∈ s, ((f i : ℝ) : EReal)) = ((∑ i ∈ s, f i : ℝ) : EReal) := by
  classical
  refine Finset.induction_on s (by simp) ?_
  intro a s ha ih
  rw [Finset.sum_insert ha, Finset.sum_insert ha, ih, EReal.coe_add]

/-- The indicator as a real number. -/
private theorem ind_coe (w : BitVec 32) : ind w = (((if bit w = 1#1 then 1 else 0 : ℝ)) : EReal) := by
  rw [ind_eq]; split_ifs <;> simp

/-- The positive part of a real number, taken in the extended reals, is the real positive part. -/
private theorem relu_coe (y : ℝ) : relu (y : EReal) = ((max y 0 : ℝ) : EReal) := by
  unfold relu
  rw [sub_zero, EReal.coe_strictMono.monotone.map_max, EReal.coe_zero]

section rows
variable {R : Nat} (X : (Mat R).Idx → EReal) (M : (Mat R).Idx → BitVec 32)

/-- The count is the real sum of the 0/1 indicators. -/
private theorem cnt_coe (r : Fin R) :
    cnt M r = ((∑ q : Fin 8192, (if bit (M (ix2 r q)) = 1#1 then 1 else 0 : ℝ) : ℝ) : EReal) := by
  unfold cnt
  simp only [ind_coe]
  exact coe_sum _ _

/-- The count is the number of set bits of the row, as a real. -/
theorem cnt_eq_card (r : Fin R) :
    cnt M r = (((Finset.univ.filter fun q : Fin 8192 => bit (M (ix2 r q)) = 1#1).card : ℝ) : EReal) := by
  rw [cnt_coe, Finset.sum_boole]

/-- A word whose unsigned value is the number of set bits of row `r` reads, as a signed integer, as the count. -/
theorem cnt_of_word (r : Fin R) (w : BitVec 32)
    (hw : w.toNat = (Finset.univ.filter fun q : Fin 8192 => bit (M (ix2 r q)) = 1#1).card) :
    (((w.toInt : ℝ)) : EReal) = cnt M r := by
  have hle : (Finset.univ.filter fun q : Fin 8192 => bit (M (ix2 r q)) = 1#1).card ≤ 8192 := by
    calc _ ≤ (Finset.univ : Finset (Fin 8192)).card := Finset.card_filter_le _ _
      _ = 8192 := by simp
  have h1 : w.toInt = (w.toNat : ℤ) := StableHlo.Predicate.toInt_eq_toNat_of_lt (by omega)
  rw [cnt_eq_card, h1, hw, Int.cast_natCast]

/-- Selecting (1 - x) on the targets and 0 elsewhere, summed from 0: the count less the targets' scores. -/
theorem selT (r : Fin R) (hfin : ∀ q : Fin 8192, X (ix2 r q) ≠ ⊤ ∧ X (ix2 r q) ≠ ⊥) :
    (0 : EReal) + ∑ q : Fin 8192, Scalar.select (bit (M (ix2 r q))) (Ideal.ofBits .f32 0x3F800000#32 - X (ix2 r q)) (0 : EReal)
      = cnt M r - ∑ q : Fin 8192, ind (M (ix2 r q)) * X (ix2 r q) := by
  -- every score of the row is a real number
  have hx : ∀ q : Fin 8192, ∃ y : ℝ, X (ix2 r q) = (y : EReal) :=
    fun q => ⟨_, (EReal.coe_toReal (hfin q).1 (hfin q).2).symm⟩
  choose x hx using hx
  -- each selected term is a real number
  have hL : ∀ q : Fin 8192,
      Scalar.select (bit (M (ix2 r q))) (Ideal.ofBits .f32 0x3F800000#32 - X (ix2 r q)) (0 : EReal)
        = (((if bit (M (ix2 r q)) = 1#1 then 1 - x q else 0 : ℝ)) : EReal) := by
    intro q
    rw [one_word, hx q]
    by_cases h : bit (M (ix2 r q)) = 1#1
    · rw [h, select_one, if_pos rfl, EReal.coe_sub, EReal.coe_one]
    · rw [eq_zero_of_ne_one h, select_zero, if_neg (by decide), EReal.coe_zero]
  -- each masked score is a real number
  have hR : ∀ q : Fin 8192, ind (M (ix2 r q)) * X (ix2 r q)
      = ((((if bit (M (ix2 r q)) = 1#1 then 1 else 0 : ℝ)) * x q : ℝ) : EReal) := by
    intro q; rw [ind_coe, hx q, EReal.coe_mul]
  have e1 : ∑ q : Fin 8192, ind (M (ix2 r q)) * X (ix2 r q)
      = ((∑ q : Fin 8192, ((if bit (M (ix2 r q)) = 1#1 then 1 else 0 : ℝ)) * x q : ℝ) : EReal) := by
    simp only [hR]; exact coe_sum _ _
  have e2 : ∑ q : Fin 8192, Scalar.select (bit (M (ix2 r q))) (Ideal.ofBits .f32 0x3F800000#32 - X (ix2 r q)) (0 : EReal)
      = ((∑ q : Fin 8192, (if bit (M (ix2 r q)) = 1#1 then 1 - x q else 0 : ℝ) : ℝ) : EReal) := by
    simp only [hL]; exact coe_sum _ _
  rw [e1, e2, cnt_coe, zero_add, ← EReal.coe_sub, ← Finset.sum_sub_distrib]
  congr 1
  refine Finset.sum_congr rfl fun q _ => ?_
  split_ifs <;> ring

/-- Selecting 0 on the targets and relu x elsewhere, summed from 0: all the relu less the targets' relu. -/
theorem selNT (r : Fin R) (hfin : ∀ q : Fin 8192, X (ix2 r q) ≠ ⊤ ∧ X (ix2 r q) ≠ ⊥) :
    (0 : EReal) + ∑ q : Fin 8192, Scalar.select (bit (M (ix2 r q))) (0 : EReal) (relu (X (ix2 r q)))
      = (∑ q : Fin 8192, relu (X (ix2 r q))) - ∑ q : Fin 8192, ind (M (ix2 r q)) * relu (X (ix2 r q)) := by
  -- every score of the row is a real number
  have hx : ∀ q : Fin 8192, ∃ y : ℝ, X (ix2 r q) = (y : EReal) :=
    fun q => ⟨_, (EReal.coe_toReal (hfin q).1 (hfin q).2).symm⟩
  choose x hx using hx
  -- each selected term is a real number
  have hL : ∀ q : Fin 8192,
      Scalar.select (bit (M (ix2 r q))) (0 : EReal) (relu (X (ix2 r q)))
        = (((if bit (M (ix2 r q)) = 1#1 then 0 else max (x q) 0 : ℝ)) : EReal) := by
    intro q
    rw [hx q, relu_coe]
    by_cases h : bit (M (ix2 r q)) = 1#1
    · rw [h, select_one, if_pos rfl, EReal.coe_zero]
    · rw [eq_zero_of_ne_one h, select_zero, if_neg (by decide)]
  have hP : ∀ q : Fin 8192, relu (X (ix2 r q)) = ((max (x q) 0 : ℝ) : EReal) := by
    intro q; rw [hx q, relu_coe]
  -- each masked positive part is a real number
  have hR : ∀ q : Fin 8192, ind (M (ix2 r q)) * relu (X (ix2 r q))
      = ((((if bit (M (ix2 r q)) = 1#1 then 1 else 0 : ℝ)) * max (x q) 0 : ℝ) : EReal) := by
    intro q; rw [ind_coe, hP q, EReal.coe_mul]
  have e0 : ∑ q : Fin 8192, relu (X (ix2 r q)) = ((∑ q : Fin 8192, max (x q) 0 : ℝ) : EReal) := by
    simp only [hP]; exact coe_sum _ _
  have e1 : ∑ q : Fin 8192, ind (M (ix2 r q)) * relu (X (ix2 r q))
      = ((∑ q : Fin 8192, ((if bit (M (ix2 r q)) = 1#1 then 1 else 0 : ℝ)) * max (x q) 0 : ℝ) : EReal) := by
    simp only [hR]; exact coe_sum _ _
  have e2 : ∑ q : Fin 8192, Scalar.select (bit (M (ix2 r q))) (0 : EReal) (relu (X (ix2 r q)))
      = ((∑ q : Fin 8192, (if bit (M (ix2 r q)) = 1#1 then 0 else max (x q) 0 : ℝ) : ℝ) : EReal) := by
    simp only [hL]; exact coe_sum _ _
  rw [e0, e1, e2, zero_add, ← EReal.coe_sub, ← Finset.sum_sub_distrib]
  congr 1
  refine Finset.sum_congr rfl fun q _ => ?_
  split_ifs <;> ring

end rows

end RankLoss

end
-- ==== Proof.RefValue.lean ====
/-
  The reference program's three results as the ranking loss of Spec.lean.

  The reference computes, per row, the targets' count as a sum of integer words converted once, the two
  numerators as sums of entry-by-entry selections, the two quotients, their means over the 4096 rows, and half the
  sum of the means. Read one operation at a time, each stage at an index is the stage before it at an index; the
  selections and the count are the laws of SpecLaws.lean (the scores finite), and a sum over the index set of a
  vector is the sum over its coordinate.
-/
import proofs.«402006_j8486855377002_3_alg».proof.Proof.SpecLaws
import proofs.«402006_j8486855377002_3_alg».proof.Proof.LibSumIdx
import proofs.«402006_j8486855377002_3_alg».proof.Proof.Gen.ReferenceIdeal.Read

noncomputable section

open scoped BigOperators

namespace Cert.ReferenceIdeal.RefValue

open Idealize.ShloMosaic Idealize.ShloMosaic.ValueIdx Cert.ReferenceIdeal Cert.ReferenceIdeal.Read

variable (X : (⟨S4096x8192, .f32⟩ : BufTy).Contents (Elt Ideal)) (M : (⟨S4096x8192, .i32⟩ : BufTy).Contents (Elt Ideal))

/-- The comparison stage at an index is the label's target bit. -/
private theorem v2_at (i : S4096x8192.Idx) : val_main_v2 (F := Ideal) M i = RankLoss.bit (M i) := by
  rw [val_main_v2_apply, val_main_v1_apply, val_main_v0_apply, val_main_c_apply]
  rfl

/-- The index a row sum reads at column `q` of row `r` is the matrix index (r, q). -/
private theorem idx11 (r : Fin 4096) (q : Fin 8192) : idx_main_v11 (ix1 r) q = ix2 r q :=
  funext fun a => by match a with | ⟨0, _⟩ => rfl | ⟨1, _⟩ => rfl

/-- The same for the second row sum. -/
private theorem idx17 (r : Fin 4096) (q : Fin 8192) : idx_main_v17 (ix1 r) q = ix2 r q :=
  funext fun a => by match a with | ⟨0, _⟩ => rfl | ⟨1, _⟩ => rfl

/-- The converted integer count of row `r` is the row's count of targets. -/
private theorem v5_at (r : Fin 4096) : val_main_v5 (F := Ideal) M (ix1 r) = RankLoss.cnt M r := by
  rw [val_main_v5_apply]
  show (((val_main_v4 (F := Ideal) M (ix1 r)).toInt : ℝ) : EReal) = _
  refine RankLoss.cnt_of_word M r _ ?_
  have h := StableHlo.Predicate.toNat_reduce_count_cols (n := 4096) (m := 8192) (by norm_num)
    (val_main_v2 (F := Ideal) M) Gen.natLt_1_32 Gen.reducesTo_S4096x8192_S4096_d1 Gen.h_S_ (ix1 r)
  have hf : ∀ q : Fin 8192, val_main_v2 (F := Ideal) M (StableHlo.Predicate.ij (ix1 r 0) q) = RankLoss.bit (M (ix2 r q)) :=
    fun q => by
      rw [v2_at]
      exact congrArg (fun i => RankLoss.bit (M i)) (funext fun a => by match a with | ⟨0, _⟩ => rfl | ⟨1, _⟩ => rfl)
  simp only [hf] at h
  exact h

/-- Row `r`'s first numerator: the count less the sum of the targets' scores. -/
private theorem v11_at (hfin : ∀ i, X i ≠ ⊤ ∧ X i ≠ ⊥) (r : Fin 4096) :
    val_main_v11 (F := Ideal) X M (ix1 r)
      = RankLoss.cnt M r - ∑ q : Fin 8192, RankLoss.ind (M (ix2 r q)) * X (ix2 r q) := by
  rw [val_main_v11_apply, val_main_cst_4_apply, Ideal.ofBits_def, Ideal.ofBits_zero_f32,
    ← RankLoss.selT X M r (fun q => hfin _)]
  refine congrArg (_ + ·) (Finset.sum_congr rfl fun q _ => ?_)
  rw [idx11, val_main_v10_apply, v2_at, val_main_v9_apply, val_main_v8_apply, val_main_cst_2_apply,
    val_main_call0_v1_apply, val_main_call0_v0_apply, val_main_cst_3_apply]
  simp only [Ideal.ofBits_def, Ideal.subf_def, Ideal.ofBits_zero_f32]

/-- Row `r`'s second numerator: the sum of the positive parts less that of the targets' positive parts. -/
private theorem v17_at (hfin : ∀ i, X i ≠ ⊤ ∧ X i ≠ ⊥) (r : Fin 4096) :
    val_main_v17 (F := Ideal) X M (ix1 r)
      = (∑ q : Fin 8192, RankLoss.relu (X (ix2 r q))) - ∑ q : Fin 8192, RankLoss.ind (M (ix2 r q)) * RankLoss.relu (X (ix2 r q)) := by
  rw [val_main_v17_apply, val_main_cst_7_apply, Ideal.ofBits_def, Ideal.ofBits_zero_f32,
    ← RankLoss.selNT X M r (fun q => hfin _)]
  refine congrArg (_ + ·) (Finset.sum_congr rfl fun q _ => ?_)
  rw [idx17, val_main_v16_apply, v2_at, val_main_call1_v1_apply, val_main_call1_v0_apply, val_main_cst_6_apply,
    val_main_v15_apply, val_main_v13_apply, val_main_v12_apply, val_main_cst_apply, val_main_v14_apply, val_main_cst_5_apply]
  simp only [Ideal.ofBits_def, Ideal.subf_def, Ideal.maximumf_def, Ideal.ofBits_zero_f32, RankLoss.relu]

/-- The mean of the target terms. -/
theorem v20_eq (hfin : ∀ i, X i ≠ ⊤ ∧ X i ≠ ⊥) :
    val_main_v20 (F := Ideal) X M = fun _ => RankLoss.lossT X M := by
  funext i
  rw [val_main_v20_apply, val_main_v19_apply, val_main_cst_8_apply, val_main_cst_9_apply,
    Cert.LibSumIdx.sum_idx1]
  simp only [Ideal.ofBits_def, Ideal.hostDivf_def, Ideal.ofBits_zero_f32, zero_add]
  unfold RankLoss.lossT
  refine congrArg (Ideal.div · _) (Finset.sum_congr rfl fun r _ => ?_)
  rw [val_main_v18_apply, Ideal.hostDivf_def, v11_at X M hfin, v5_at]
  rfl

/-- The mean of the non-target terms. -/
theorem v23_eq (hfin : ∀ i, X i ≠ ⊤ ∧ X i ≠ ⊥) :
    val_main_v23 (F := Ideal) X M = fun _ => RankLoss.lossNT X M := by
  funext i
  rw [val_main_v23_apply, val_main_v22_apply, val_main_cst_10_apply, val_main_cst_11_apply,
    Cert.LibSumIdx.sum_idx1]
  simp only [Ideal.ofBits_def, Ideal.hostDivf_def, Ideal.ofBits_zero_f32, zero_add]
  unfold RankLoss.lossNT
  refine congrArg (Ideal.div · _) (Finset.sum_congr rfl fun r _ => ?_)
  rw [val_main_v21_apply, Ideal.hostDivf_def, v17_at X M hfin, val_main_v7_apply, val_main_v6_apply,
    val_main_cst_1_apply, v5_at, Ideal.ofBits_def, Ideal.subf_def]
  rfl

/-- Half the sum of the two means. -/
theorem v25_eq (hfin : ∀ i, X i ≠ ⊤ ∧ X i ≠ ⊥) :
    val_main_v25 (F := Ideal) X M = fun _ => RankLoss.loss X M := by
  funext i
  rw [val_main_v25_apply, val_main_v24_apply, val_main_cst_12_apply, v20_eq X M hfin, v23_eq X M hfin,
    Ideal.ofBits_def, Ideal.mulf_def, Ideal.addf_def]
  rfl

end Cert.ReferenceIdeal.RefValue

end
-- ==== Proof.Finite.lean ====
/-
  The precondition says every score is finite.

  The printed precondition compares |x| with the word of +infinity, entry by entry, and takes the conjunction of
  all the comparison bits. If the conjunction is 1 then every bit is 1, so |x| < +infinity at every entry; over the
  extended reals |x| is max x (-x), which is +infinity exactly when x is +infinity or -infinity.
-/
import proofs.«402006_j8486855377002_3_alg».proof.Pre_finite_inputs
import proofs.«402006_j8486855377002_3_alg».proof.Proof.Gen.Pre_finite_inputs
import Idealize.ShloMosaic.PureOps.Ideal.Laws
import Idealize.ShloMosaic.Lib.ReduceAll
import Idealize.ShloMosaic.Lib.ValueIdx
import Idealize.ShloMosaic.Lib.Pipeline.Value

noncomputable section

namespace RankLoss

open Idealize.ShloMosaic Idealize.ShloMosaic.ValueIdx

/-- The word 0x7F800000 denotes +infinity. -/
theorem inf_word : Ideal.ofBits .f32 0x7F800000#32 = ⊤ := by
  simp [Ideal.ofBits, Ideal.ieee]

/-- An extended real whose absolute value is below +infinity is finite. -/
theorem finite_of_abs_lt (x : EReal) (h : Ideal.cmp .olt (max x (-x)) (Ideal.ofBits .f32 0x7F800000#32) = 1#1) :
    x ≠ ⊤ ∧ x ≠ ⊥ := by
  rw [inf_word] at h
  have hlt : max x (-x) < ⊤ := by
    unfold Ideal.cmp at h
    by_contra hn
    simp [hn] at h
  constructor
  · rintro rfl
    simp at hlt
  · rintro rfl
    simp at hlt

instance : Subsingleton Cert.Pre_finite_inputs.S_.Idx := ⟨fun a b => funext fun d => d.elim0⟩

/-- The printed precondition, all ones, gives finiteness of every score. -/
theorem finite_of_pre (X : FVec Ideal Cert.Pre_finite_inputs.S4096x8192 .f32) (M : IVec Cert.Pre_finite_inputs.S4096x8192 32)
    (h : Cert.Pre_finite_inputs.fn (F := Ideal) X M = fun _ => 1#1) : ∀ i, X i ≠ ⊤ ∧ X i ≠ ⊥ := by
  intro i
  have h1 := congrFun h ix0
  dsimp only [Cert.Pre_finite_inputs.fn] at h1
  have h2 := Host.reduce_andi_all _ _ _ _ _ h1 i
  refine finite_of_abs_lt (X i) ?_
  refine Eq.trans ?_ h2
  show _ = Ideal.cmp .olt (max (X i) (-(X i))) (broadcastInDim Cert.Pre_finite_inputs.S4096x8192 ![] _ (constant (F := Ideal) Cert.Pre_finite_inputs.S_ .f32 0x7F800000#32) i)
  rw [broadcastInDim_apply _ _ _ i ix0 (fun a => a.elim0)]
  rfl

end RankLoss

end
-- ==== Proof.lean ====
/-
  The certificate: both programs compute the ranking loss of Spec.lean.

  The kernel program walks the 4096 rows in two shards of eight blocks of 256 rows, keeping per shard a running sum
  of the blocks' sums of row terms, and its last lines add the two shards, divide by 4096 and halve the sum of the
  two means (KTail.lean). The reference forms each row term from entry-by-entry selections and an integer count
  and takes the means over all rows at once (RefValue.lean). With every score finite — which is what the
  precondition says (Finite.lean) — the two spellings of a row term agree (SpecLaws.lean), and a sum over all rows is
  the sum over shards, blocks and rows in a block (SpecSums.lean). The three frame claims are the generated frames
  and the reference's generated run; the idealization rewrote nothing.
-/
import proofs.«402006_j8486855377002_3_alg».proof.Defs
import proofs.«402006_j8486855377002_3_alg».proof.Proof.Gen.Kernel
import proofs.«402006_j8486855377002_3_alg».proof.Proof.Gen.Kernel.Skeleton
import proofs.«402006_j8486855377002_3_alg».proof.Proof.Gen.Kernel.Launch
import proofs.«402006_j8486855377002_3_alg».proof.Proof.Gen.Kernel.Points
import proofs.«402006_j8486855377002_3_alg».proof.Proof.Gen.Kernel.Frame
import proofs.«402006_j8486855377002_3_alg».proof.Proof.Gen.KernelIdeal
import proofs.«402006_j8486855377002_3_alg».proof.Proof.Gen.KernelIdeal.Skeleton
import proofs.«402006_j8486855377002_3_alg».proof.Proof.Gen.KernelIdeal.Launch
import proofs.«402006_j8486855377002_3_alg».proof.Proof.Gen.KernelIdeal.Points
import proofs.«402006_j8486855377002_3_alg».proof.Proof.Gen.KernelIdeal.Frame
import proofs.«402006_j8486855377002_3_alg».proof.Proof.Gen.ReferenceIdeal
import proofs.«402006_j8486855377002_3_alg».proof.Proof.Gen.Pre_finite_inputs
import proofs.«402006_j8486855377002_3_alg».proof.Proof.Gen.ReferenceIdeal.Run
import proofs.«402006_j8486855377002_3_alg».proof.Proof.Gen.ReferenceIdeal.Read
import proofs.«402006_j8486855377002_3_alg».proof.Proof.KTail
import proofs.«402006_j8486855377002_3_alg».proof.Proof.RefValue
import proofs.«402006_j8486855377002_3_alg».proof.Proof.Finite
import Idealize.ShloMosaic.Adequacy
import Idealize.ShloMosaic.Init

noncomputable section

namespace Cert.Proof

open Idealize.ShloMosaic Idealize.SL.Sem

/-- The word-level kernel's frame: generated. -/
theorem frame_k : Cert.frame_Kernel (hKernel := Cert.Kernel.Gen.facts) (hPre_finite_inputs := Cert.Pre_finite_inputs.Gen.facts) :=
  fun m ρ _ => Cert.Kernel.Gen.frame m ρ

/-- The idealized kernel's frame: generated. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its generated run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => ⟨(h c).2.2.2.1, (h c).2.2.2.2⟩)
    (Cert.ReferenceIdeal.Value.run (F := Ideal) m ρ)

/-- Both idealized programs end at the ranking loss of the arguments they agree on. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => RankLoss.loss (Cert.KernelIdeal.KValue.Xs m c) (Cert.KernelIdeal.KValue.Ms m c),
    fun c => fun _ => RankLoss.lossT (Cert.KernelIdeal.KValue.Xs m c) (Cert.KernelIdeal.KValue.Ms m c),
    fun c => fun _ => RankLoss.lossNT (Cert.KernelIdeal.KValue.Xs m c) (Cert.KernelIdeal.KValue.Ms m c),
    Cert.KernelIdeal.KValue.run m ρ, ?_⟩
  refine (θ_run Cert.ReferenceIdeal.defs _ _).mono (fun _ h c => ?_) (Cert.ReferenceIdeal.Value.run (F := Ideal) m' ρ')
  have hfin := RankLoss.finite_of_pre _ _ (hpre c)
  obtain ⟨h1, h2, h3, h4, h5⟩ := h c
  refine ⟨h1.trans ?_, h2.trans ?_, h3.trans ?_, h4, h5⟩
  · rw [Cert.ReferenceIdeal.Read.val_main_v25_eq, (hagree c).1, (hagree c).2]
    exact Cert.ReferenceIdeal.RefValue.v25_eq _ _ hfin
  · rw [Cert.ReferenceIdeal.Read.val_main_v20_eq, (hagree c).1, (hagree c).2]
    exact Cert.ReferenceIdeal.RefValue.v20_eq _ _ hfin
  · rw [Cert.ReferenceIdeal.Read.val_main_v23_eq, (hagree c).1, (hagree c).2]
    exact Cert.ReferenceIdeal.RefValue.v23_eq _ _ hfin

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
